-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2000000x128 : Shape := ⟨2, ![2000000, 128]⟩
abbrev S2000000 : Shape := ⟨1, ![2000000]⟩
abbrev S200000x128 : Shape := ⟨2, ![200000, 128]⟩
abbrev S2000x128 : Shape := ⟨2, ![2000, 128]⟩
abbrev S128 : Shape := ⟨1, ![128]⟩
abbrev S128x128 : Shape := ⟨2, ![128, 128]⟩
abbrev S_ : Shape := ⟨0, ![]⟩

class Facts : Prop where
  bcast_S_S2000000x128 : S_.BroadcastsInDim S2000000x128 (![] : Fin 0 → Fin S2000000x128.rank)
  reducesTo_S2000000x128_S_d0_1 : S2000000x128.ReducesTo [0, 1] S_
  h_S_ : 0 < S_.numel
  bcast_S_S200000x128 : S_.BroadcastsInDim S200000x128 (![] : Fin 0 → Fin S200000x128.rank)
  reducesTo_S200000x128_S_d0_1 : S200000x128.ReducesTo [0, 1] S_
  bcast_S_S2000x128 : S_.BroadcastsInDim S2000x128 (![] : Fin 0 → Fin S2000x128.rank)
  reducesTo_S2000x128_S_d0_1 : S2000x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part1 {F : FTy → Type} [FloatOps F] (main_arg6 : FVec F S128x128 .f32) (main_arg7 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S2000000x128 .f32) (main_arg1 : IVec S2000000 32) (main_arg2 : IVec S2000000 32) (main_arg3 : FVec F S200000x128 .f32) (main_arg4 : FVec F S2000x128 .f32) (main_arg5 : FVec F S128 .f32) (main_arg6 : FVec F S128x128 .f32) (main_arg7 : FVec F S128 .f32) : IVec S_ 1 :=
  let main_v0 : FVec F S2000000x128 .f32 := Host.absf main_arg0
  let main_cst : FVec F S_ .f32 := constant S_ .f32 0x7F800000#32
  let main_v1 : FVec F S2000000x128 .f32 := broadcastInDim S2000000x128 ![] bcast_S_S2000000x128 main_cst
  let main_v2 : IVec S2000000x128 1 := cmpf .olt main_v0 main_v1
  let main_c : IVec S_ 1 := constantI S_ 1 1#1
  let main_v3 : IVec S_ 1 := (fun x v => Host.reduce IntOp.andi x v reducesTo_S2000000x128_S_d0_1 h_S_) main_v2 main_c
  let main_v4 : FVec F S200000x128 .f32 := Host.absf main_arg3
  let main_cst_0 : FVec F S_ .f32 := constant S_ .f32 0x7F800000#32
  let main_v5 : FVec F S200000x128 .f32 := broadcastInDim S200000x128 ![] bcast_S_S200000x128 main_cst_0
  let main_v6 : IVec S200000x128 1 := cmpf .olt main_v4 main_v5
  let main_c_1 : IVec S_ 1 := constantI S_ 1 1#1
  let main_v7 : IVec S_ 1 := (fun x v => Host.reduce IntOp.andi x v reducesTo_S200000x128_S_d0_1 h_S_) main_v6 main_c_1
  let main_v8 : IVec S_ 1 := andi main_v3 main_v7
  let main_v9 : FVec F S2000x128 .f32 := Host.absf main_arg4
  let main_cst_2 : FVec F S_ .f32 := constant S_ .f32 0x7F800000#32
  let main_v10 : FVec F S2000x128 .f32 := broadcastInDim S2000x128 ![] bcast_S_S2000x128 main_cst_2
  let main_v11 : IVec S2000x128 1 := cmpf .olt main_v9 main_v10
  let main_c_3 : IVec S_ 1 := constantI S_ 1 1#1
  let main_v12 : IVec S_ 1 := (fun x v => Host.reduce IntOp.andi x v reducesTo_S2000x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_v13 main_v16
-- ==== Kernel.lean ====
abbrev S2000000x128 : Shape := ⟨2, ![2000000, 128]⟩
abbrev S2000000 : Shape := ⟨1, ![2000000]⟩
abbrev S200000x128 : Shape := ⟨2, ![200000, 128]⟩
abbrev S2000x128 : Shape := ⟨2, ![2000, 128]⟩
abbrev S128 : Shape := ⟨1, ![128]⟩
abbrev S128x128 : Shape := ⟨2, ![128, 128]⟩
abbrev S_ : Shape := ⟨0, ![]⟩
abbrev S2000000x1 : Shape := ⟨2, ![2000000, 1]⟩
abbrev S1x128 : Shape := ⟨2, ![1, 128]⟩
abbrev S5000x128 : Shape := ⟨2, ![5000, 128]⟩

abbrev nBuf : Space → Nat
  | .hbm => 31
  | .vmem => 10
  | .smem => 0
  | _ => 0

abbrev bufTy : (tb : Table) → Fin (tcTables nBuf tb) → BufTy
  | .hbm, ⟨0, _⟩ => ⟨S2000000x128, .f32⟩
  | .hbm, ⟨1, _⟩ => ⟨S2000000, .i32⟩
  | .hbm, ⟨2, _⟩ => ⟨S2000000, .i32⟩
  | .hbm, ⟨3, _⟩ => ⟨S200000x128, .f32⟩
  | .hbm, ⟨4, _⟩ => ⟨S2000x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S_, .i32⟩
  | .hbm, ⟨9, _⟩ => ⟨S2000000, .i32⟩
  | .hbm, ⟨10, _⟩ => ⟨S2000000, .i1⟩
  | .hbm, ⟨11, _⟩ => ⟨S_, .i32⟩
  | .hbm, ⟨12, _⟩ => ⟨S2000000, .i32⟩
  | .hbm, ⟨13, _⟩ => ⟨S2000000, .i32⟩
  | .hbm, ⟨14, _⟩ => ⟨S2000000, .i32⟩
  | .hbm, ⟨15, _⟩ => ⟨S2000000x1, .i32⟩
  | .hbm, ⟨16, _⟩ => ⟨S2000000x128, .f32⟩
  | .hbm, ⟨17, _⟩ => ⟨S_, .i32⟩
  | .hbm, ⟨18, _⟩ => ⟨S2000000, .i32⟩
  | .hbm, ⟨19, _⟩ => ⟨S2000000, .i1⟩
  | .hbm, ⟨20, _⟩ => ⟨S_, .i32⟩
  | .hbm, ⟨21, _⟩ => ⟨S2000000, .i32⟩
  | .hbm, ⟨22, _⟩ => ⟨S2000000, .i32⟩
  | .hbm, ⟨23, _⟩ => ⟨S2000000, .i32⟩
  | .hbm, ⟨24, _⟩ => ⟨S2000000x1, .i32⟩
  | .hbm, ⟨25, _⟩ => ⟨S2000000x128, .f32⟩
  | .hbm, ⟨26, _⟩ => ⟨S128, .f32⟩
  | .hbm, ⟨27, _⟩ => ⟨S1x128, .f32⟩
  | .hbm, ⟨28, _⟩ => ⟨S128x128, .f32⟩
  | .hbm, ⟨29, _⟩ => ⟨S128x128, .bf16⟩
  | .hbm, ⟨30, _⟩ => ⟨S2000000x128, .f32⟩
  | .local _ .vmem, ⟨0, _⟩ => ⟨S5000x128, .f32⟩
  | .local _ .vmem, ⟨1, _⟩ => ⟨S5000x128, .f32⟩
  | .local _ .vmem, ⟨2, _⟩ => ⟨S128x128, .bf16⟩
  | .local _ .vmem, ⟨3, _⟩ => ⟨S1x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | _, _ => ⟨S2000000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_c_1 : Ref sig .tc := ⟨.hbm, 17, rfl⟩
abbrev main_v7 : Ref sig .tc := ⟨.hbm, 18, rfl⟩
abbrev main_v8 : Ref sig .tc := ⟨.hbm, 19, rfl⟩
abbrev main_c_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![400], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S5000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bcast_S_S2000000 : S_.BroadcastsInDim S2000000 (![] : Fin 0 → Fin S2000000.rank)
  bcast_S2000000_S2000000x1_0 : S2000000.BroadcastsInDim S2000000x1 (![0] : Fin 1 → Fin S2000000x1.rank)
  shapeCasts_S128_S1x128 : S128.ShapeCasts S1x128
  transposes_S128x128_S128x128_1_0 : S128x128.Transposes [1, 0] S128x128
  bitsLt_bf16_f32 : FTy.bits .bf16 < FTy.bits .f32
  inb_S5000x128_S5000x128_0_0 : ∀ a, (![0, 0] : Fin 2 → Nat) a + S5000x128.size a ≤ S5000x128.size a
  h_S5000x128 : 0 < S5000x128.numel
  inb_S128x128_S128x128_0_0 : ∀ a, (![0, 0] : Fin 2 → Nat) a + S128x128.size a ≤ S128x128.size a
  h_S128x128 : 0 < S128x128.numel
  shapeCasts_S128x128_S128x128 : S128x128.ShapeCasts S128x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  gather_S200000x128_S2000000x1_S2000000x128_1_0_n_n_0_1_1128_wf : GatherDims.WF S200000x128 S2000000x1 S2000000x128 [1] [0] [] [0] [] 1 ![1, 128]
  gather_S2000x128_S2000000x1_S2000000x128_1_0_n_n_0_1_1128_wf : GatherDims.WF S2000x128 S2000000x1 S2000000x128 [1] [0] [] [0] [] 1 ![1, 128]
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S2000000x128.size a
  hwx0_0 : ∀ i : grid0.Coords, EltTy.bits .f32 = 32 ∨ (Rect.block (s := S2000000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .bf16 = 32 ∨ (Rect.block (s := S128x128) S128x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S2000000x128.size a
  hwx0_3 : ∀ i : grid0.Coords, EltTy.bits .f32 = 32 ∨ (Rect.block (s := S2000000x128) S5000x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x128.size a ≤ S2000000x128.size a
  hwx0_4 : ∀ i : grid0.Coords, EltTy.bits .f32 = 32 ∨ (Rect.block (s := S2000000x128) S5000x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S2000000x128.size a
  hwx0_5 : ∀ i : grid0.Coords, EltTy.bits .f32 = 32 ∨ (Rect.block (s := S2000000x128) S5000x128.size (cc0_transform_5 i) (hinb0_5 i)).WholeWords (EltTy.packing .f32)

variable [Facts₀]

def gather_S200000x128_S2000000x1_S2000000x128_1_0_n_n_0_1_1128 : GatherDims S200000x128 S2000000x1 S2000000x128 where
  offsetDims := [1]
  collapsedSliceDims := [0]
  operandBatchingDims := []
  startIndicesBatchingDims := []
  startIndexMap := [0]
  indexVectorDim := 1
  sliceSizes := ![1, 128]
  wf := gather_S200000x128_S2000000x1_S2000000x128_1_0_n_n_0_1_1128_wf
def gather_S2000x128_S2000000x1_S2000000x128_1_0_n_n_0_1_1128 : GatherDims S2000x128 S2000000x1 S2000000x128 where
  offsetDims := [1]
  collapsedSliceDims := [0]
  operandBatchingDims := []
  startIndicesBatchingDims := []
  startIndexMap := [0]
  indexVectorDim := 1
  sliceSizes := ![1, 128]
  wf := gather_S2000x128_S2000000x1_S2000000x128_1_0_n_n_0_1_1128_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S5000x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v13) S5000x128.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v18) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S2000000x128 : Shape := ⟨2, ![2000000, 128]⟩
abbrev S2000000 : Shape := ⟨1, ![2000000]⟩
abbrev S200000x128 : Shape := ⟨2, ![200000, 128]⟩
abbrev S2000x128 : Shape := ⟨2, ![2000, 128]⟩
abbrev S128 : Shape := ⟨1, ![128]⟩
abbrev S128x128 : Shape := ⟨2, ![128, 128]⟩
abbrev S1x128 : Shape := ⟨2, ![1, 128]⟩
abbrev S_ : Shape := ⟨0, ![]⟩
abbrev S2000000x1 : Shape := ⟨2, ![2000000, 1]⟩

abbrev nBuf : Space → Nat
  | .hbm => 38
  | .vmem => 0
  | .smem => 0
  | _ => 0

abbrev bufTy : (tb : Table) → Fin (tcTables nBuf tb) → BufTy
  | .hbm, ⟨0, _⟩ => ⟨S2000000x128, .f32⟩
  | .hbm, ⟨1, _⟩ => ⟨S2000000, .i32⟩
  | .hbm, ⟨2, _⟩ => ⟨S2000000, .i32⟩
  | .hbm, ⟨3, _⟩ => ⟨S200000x128, .f32⟩
  | .hbm, ⟨4, _⟩ => ⟨S2000x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S2000000x128, .f32⟩
  | .hbm, ⟨9, _⟩ => ⟨S1x128, .f32⟩
  | .hbm, ⟨10, _⟩ => ⟨S2000000x128, .f32⟩
  | .hbm, ⟨11, _⟩ => ⟨S2000000x128, .f32⟩
  | .hbm, ⟨12, _⟩ => ⟨S_, .i32⟩
  | .hbm, ⟨13, _⟩ => ⟨S2000000, .i32⟩
  | .hbm, ⟨14, _⟩ => ⟨S2000000, .i1⟩
  | .hbm, ⟨15, _⟩ => ⟨S_, .i32⟩
  | .hbm, ⟨16, _⟩ => ⟨S2000000, .i32⟩
  | .hbm, ⟨17, _⟩ => ⟨S2000000, .i32⟩
  | .hbm, ⟨18, _⟩ => ⟨S2000000, .i32⟩
  | .hbm, ⟨19, _⟩ => ⟨S2000000x1, .i32⟩
  | .hbm, ⟨20, _⟩ => ⟨S2000000x128, .f32⟩
  | .hbm, ⟨21, _⟩ => ⟨S2000000x128, .f32⟩
  | .hbm, ⟨22, _⟩ => ⟨S_, .i32⟩
  | .hbm, ⟨23, _⟩ => ⟨S2000000, .i32⟩
  | .hbm, ⟨24, _⟩ => ⟨S2000000, .i1⟩
  | .hbm, ⟨25, _⟩ => ⟨S_, .i32⟩
  | .hbm, ⟨26, _⟩ => ⟨S2000000, .i32⟩
  | .hbm, ⟨27, _⟩ => ⟨S2000000, .i32⟩
  | .hbm, ⟨28, _⟩ => ⟨S2000000, .i32⟩
  | .hbm, ⟨29, _⟩ => ⟨S2000000x1, .i32⟩
  | .hbm, ⟨30, _⟩ => ⟨S2000000x128, .f32⟩
  | .hbm, ⟨31, _⟩ => ⟨S2000000x128, .f32⟩
  | .hbm, ⟨32, _⟩ => ⟨S1x128, .f32⟩
  | .hbm, ⟨33, _⟩ => ⟨S2000000x128, .f32⟩
  | .hbm, ⟨34, _⟩ => ⟨S2000000x128, .f32⟩
  | .hbm, ⟨35, _⟩ => ⟨S_, .f32⟩
  | .hbm, ⟨36, _⟩ => ⟨S2000000x128, .f32⟩
  | .hbm, ⟨37, _⟩ => ⟨S2000000x128, .f32⟩
  | _, _ => ⟨S2000000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_c_1 : Ref sig .tc := ⟨.hbm, 22, rfl⟩
abbrev main_v12 : Ref sig .tc := ⟨.hbm, 23, rfl⟩
abbrev main_v13 : Ref sig .tc := ⟨.hbm, 24, rfl⟩
abbrev main_c_2 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst : Ref sig .tc := ⟨.hbm, 35, rfl⟩
abbrev main_v23 : Ref sig .tc := ⟨.hbm, 36, rfl⟩
abbrev main_v24 : Ref sig .tc := ⟨.hbm, 37, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S2000000x128_0_1 : S1x128.BroadcastsInDim S2000000x128 (![0, 1] : Fin 2 → Fin S2000000x128.rank)
  bcast_S_S2000000 : S_.BroadcastsInDim S2000000 (![] : Fin 0 → Fin S2000000.rank)
  bcast_S2000000_S2000000x1_0 : S2000000.BroadcastsInDim S2000000x1 (![0] : Fin 1 → Fin S2000000x1.rank)
  bcast_S_S2000000x128 : S_.BroadcastsInDim S2000000x128 (![] : Fin 0 → Fin S2000000x128.rank)
  dot_S2000000x128_S128x128_S2000000x128_1_1_0_0_n_n_wf : DotDims.WF S2000000x128 S128x128 S2000000x128 [1] [1] [0] [0] [] []
  gather_S200000x128_S2000000x1_S2000000x128_1_0_n_n_0_1_1128_wf : GatherDims.WF S200000x128 S2000000x1 S2000000x128 [1] [0] [] [0] [] 1 ![1, 128]
  gather_S2000x128_S2000000x1_S2000000x128_1_0_n_n_0_1_1128_wf : GatherDims.WF S2000x128 S2000000x1 S2000000x128 [1] [0] [] [0] [] 1 ![1, 128]

variable [Facts₀]

def dot_S2000000x128_S128x128_S2000000x128_1_1_0_0_n_n : DotDims S2000000x128 S128x128 S2000000x128 where
  lhsContracting := [1]
  rhsContracting := [1]
  lhsNonContracting := [0]
  rhsNonContracting := [0]
  lhsBatch := []
  rhsBatch := []
  wf := dot_S2000000x128_S128x128_S2000000x128_1_1_0_0_n_n_wf
def gather_S200000x128_S2000000x1_S2000000x128_1_0_n_n_0_1_1128 : GatherDims S200000x128 S2000000x1 S2000000x128 where
  offsetDims := [1]
  collapsedSliceDims := [0]
  operandBatchingDims := []
  startIndicesBatchingDims := []
  startIndexMap := [0]
  indexVectorDim := 1
  sliceSizes := ![1, 128]
  wf := gather_S200000x128_S2000000x1_S2000000x128_1_0_n_n_0_1_1128_wf
def gather_S2000x128_S2000000x1_S2000000x128_1_0_n_n_0_1_1128 : GatherDims S2000x128 S2000000x1 S2000000x128 where
  offsetDims := [1]
  collapsedSliceDims := [0]
  operandBatchingDims := []
  startIndicesBatchingDims := []
  startIndexMap := [0]
  indexVectorDim := 1
  sliceSizes := ![1, 128]
  wf := gather_S2000x128_S2000000x1_S2000000x128_1_0_n_n_0_1_1128_wf

class Facts : Prop extends Facts₀ where

variable [Facts]
-- ==== Proof.Average.lean ====
/-
  The value both programs compute, as ONE function of the argument arrays on the extended reals.

  Row `n` of the result is the average of four feature rows, each of width 128:
    the projection of `values[n, ·]` by the weight matrix, `∑ k, values[n, k] · W[o, k]`;
    the scene-point row and the view row the two index arrays select for `n`;
    and one row common to all `n`, the bias plus the global features.
  "Average" is the sum of the four times the constant one quarter.

  The two programs add the four rows in different orders and with different grouping: one adds the bias to the
  projection first and the global row last, the other adds bias and global row to each other first and that sum last.
  Addition on the extended reals is commutative and associative at every value, the infinities included, so the
  two groupings agree (`regroup`) and no finiteness of the inputs is used.
-/
import Idealize.ShloMosaic.PureOps.Ideal
import Idealize.ShloMosaic.Lib.ValueIdx

noncomputable section

open scoped BigOperators
open Idealize.ShloMosaic Idealize.ShloMosaic.ValueIdx

namespace Cert.Proof.Average

/-- The 2,000,000 rows of 128 features: the shape of `values`, of the two gathered tables and of the result. -/
abbrev Rows : Shape := ⟨2, ![2000000, 128]⟩
/-- The weight matrix, `[out, in]`. -/
abbrev Weights : Shape := ⟨2, ![128, 128]⟩
/-- One feature row. -/
abbrev Feat : Shape := ⟨1, ![128]⟩

/-- The constant the sum of the four rows is multiplied by: the f32 pattern of 0.25. Both programs carry the same
    pattern, so its value is never needed. -/
def quarter : EReal := Ideal.ofBits .f32 0x3E800000#32

/-- The projection of row `i 0` of `x` onto output feature `i 1`: the contraction over the 128 input features. -/
def proj (x : Rows.Idx → EReal) (W : Weights.Idx → EReal) (i : Rows.Idx) : EReal :=
  ∑ k : Fin 128, x (ix2 (i 0) k) * W (ix2 (i 1) k)

/-- The averaged features: projection, scene row, view row and (bias + global row), summed in that grouping,
    times one quarter. `sc` and `vw` are the two tables ALREADY gathered row by row. -/
def avg (x : Rows.Idx → EReal) (W : Weights.Idx → EReal) (b g : Feat.Idx → EReal) (sc vw : Rows.Idx → EReal) :
    Rows.Idx → EReal :=
  fun i => (((proj x W i + sc i) + vw i) + (b (ix1 (i 1)) + g (ix1 (i 1)))) * quarter

/-- The four summands in the other program's grouping: the bias joins the projection first, the global row comes last. -/
theorem regroup (p s v b g : EReal) : (((p + b) + s) + v) + g = ((p + s) + v) + (b + g) := by
  abel

end Cert.Proof.Average

end
-- ==== Proof.KernelPayload.lean ====
/-
  What the kernel body stores, read at one element of a row block.

  At a grid point the body holds a block of 5000 rows of `values`, the whole transposed weight matrix, the one row
  (bias + global features), and the matching 5000-row blocks of the two gathered tables. It multiplies the row block
  by the weight block on the matrix unit into a zero accumulator, adds the scene block, the view block and the
  broadcast row, and scales by one quarter. On the extended reals the narrowing of the operands is the identity and
  the product into zero is the plain contraction, so element `(p, q)` of what it stores is
    `((((∑ k, x[p, k] · w[k, q]) + s[p, q]) + v[p, q]) + r[0, q]) · ¼`.
-/
import proofs.«127193_j33088428049082_1_alg».proof.Proof.Gen.KernelIdeal.Skeleton
import proofs.«127193_j33088428049082_1_alg».proof.Proof.Average
import Idealize.ShloMosaic.Lib.Pipeline.Value
import Idealize.ShloMosaic.Lib.ValueIdx
import Idealize.ShloMosaic.PureOps.Ideal.Laws

noncomputable section

open scoped BigOperators
open Idealize.ShloMosaic Idealize.ShloMosaic.ValueIdx

namespace Cert.Proof.KernelPayload

open Cert.KernelIdeal Cert.KernelIdeal.Gen Cert.Proof.Average

/-! ## The contraction's operand indices -/

/-- The left operand's row is the output's row. -/
theorem lhs_axis0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- The left operand's column is the contracted coordinate. -/
theorem lhs_axis1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
/-- The right operand's row is the contracted coordinate. -/
theorem rhs_axis0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
/-- The right operand's column is the output's column. -/
theorem rhs_axis1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The block product into the zero accumulator, at an element: the contraction of row `i 0` of the left block with
    column `i 1` of the right block. -/
theorem product_at (a : FVec Ideal S5000x128 .bf16) (w : FVec Ideal S128x128 .bf16) (i : S5000x128.Idx) :
    matmul (F := Ideal) dot_S5000x128_S128x128_S5000x128_1_0_0_1_n_n none a w (constant (F := Ideal) S5000x128 .f32 0x00000000#32) i
      = ∑ k : Fin 128, a (ix2 (i 0) k) * w (ix2 k (i 1)) := by
  simp only [matmul]
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx i ((contrEquiv1 dot_S5000x128_S128x128_S5000x128_1_0_0_1_n_n 128 rfl rfl).symm k) = ix2 (i 0) k := funext fun a => Fin.ext (by
    match a with
    | ⟨0, _⟩ => exact lhs_axis0 _ _
    | ⟨1, _⟩ => exact (lhs_axis1 _ _).trans hk)
  have er : dot_S5000x128_S128x128_S5000x128_1_0_0_1_n_n.rhsIdx i ((contrEquiv1 dot_S5000x128_S128x128_S5000x128_1_0_0_1_n_n 128 rfl rfl).symm k) = ix2 k (i 1) := funext fun a => Fin.ext (by
    match a with
    | ⟨0, _⟩ => exact (rhs_axis0 _ _).trans hk
    | ⟨1, _⟩ => exact rhs_axis1 _ _)
  rw [el, er]
  rfl

/-- The one row broadcast down the block, at an element: the row's entry in that column. -/
theorem row_at (r : FVec Ideal S1x128 .f32) (h : S1x128.Broadcasts S5000x128) (i : S5000x128.Idx) :
    broadcastTo S5000x128 r h i = r (ix2 0 (i 1)) :=
  broadcastTo_apply r h i (ix2 0 (i 1)) (fun a => by
    match a with
    | ⟨0, _⟩ => show (0 : Nat) = if (1 : Nat) = 1 then 0 else (i 0).val; rw [if_pos rfl]
    | ⟨1, _⟩ => show (i 1).val = if (128 : Nat) = 1 then 0 else (i 1).val; rw [if_neg (by decide)])

/-- WHAT THE BODY STORES, at an element of the block. -/
theorem stored_at (x : Vec Ideal S5000x128 .f32) (w : Vec Ideal S128x128 .bf16) (s v : Vec Ideal S5000x128 .f32)
    (r : Vec Ideal S1x128 .f32) (i : S5000x128.Idx) :
    k0_pay1 (F := Ideal) x w s v r i
      = ((((∑ k : Fin 128, x (ix2 (i 0) k) * w (ix2 k (i 1))) + s i) + v i) + r (ix2 0 (i 1))) * quarter := by
  unfold k0_pay1
  simp only [shapeCast_self]
  show (((matmul (F := Ideal) dot_S5000x128_S128x128_S5000x128_1_0_0_1_n_n none (truncf (F := Ideal) .bf16 x bitsLt_bf16_f32) w (constant (F := Ideal) S5000x128 .f32 0x00000000#32) i + s i) + v i)
      + broadcastTo S5000x128 r broadcasts_S1x128_S5000x128 i) * quarter = _
  rw [product_at, row_at]
  rfl

/-- THE STORED BLOCK IS A BLOCK OF THE AVERAGE: if the body's five loaded blocks are, element for element, the entries of
    the whole arrays that element `i` of the result depends on — row `i 0` of `x`; column `i 1` of the transposed weights,
    which is row `i 1` of `W`; the gathered tables at `i`; the bias and global features at feature `i 1` — then what the
    body stores at the block's element `j` is `avg … i`. -/
theorem stored_eq_avg (x : Rows.Idx → EReal) (W : Weights.Idx → EReal) (b g : Feat.Idx → EReal) (sc vw : Rows.Idx → EReal)
    (xb : Vec Ideal S5000x128 .f32) (wb : Vec Ideal S128x128 .bf16) (sb vb : Vec Ideal S5000x128 .f32)
    (rb : Vec Ideal S1x128 .f32) (j : S5000x128.Idx) (i : Rows.Idx)
    (hx : ∀ k : Fin 128, xb (ix2 (j 0) k) = x (ix2 (i 0) k))
    (hw : ∀ k : Fin 128, wb (ix2 k (j 1)) = W (ix2 (i 1) k))
    (hs : sb j = sc i) (hv : vb j = vw i)
    (hr : rb (ix2 0 (j 1)) = b (ix1 (i 1)) + g (ix1 (i 1))) :
    k0_pay1 (F := Ideal) xb wb sb vb rb j = avg x W b g sc vw i := by
  rw [stored_at, hs, hv, hr]
  unfold avg proj
  rw [Finset.sum_congr rfl fun k _ => by rw [hx k, hw k]]

end Cert.Proof.KernelPayload

end
-- ==== Proof.KernelAverage.lean ====
/-
  The kernel's result array, whole: after the run it holds `Average.avg` of the argument arrays.

  The grid has 400 points; point `t` works on rows `5000·t … 5000·t + 4999`. Its blocks of `values` and of the two
  gathered tables are those rows; the transposed weights and the (bias + global) row are the same whole arrays at
  every point. The body stores, at each element of its block, the average at the corresponding array element
  (`KernelPayload.stored_eq_avg`), and the 400 blocks tile the 2,000,000 rows (row `r` is in the block of point
  `r / 5000`), so every element of the array ends at the average.

  Three arrays the body reads are written by the operations before the call: the weights transposed, so that
  entry `(k, o)` is `W[o, k]`; the row `bias + global` reshaped from 128 entries to one row of 128; and the two tables
  gathered row by row, which are carried as they stand.
-/
import proofs.«127193_j33088428049082_1_alg».proof.Proof.Gen.KernelIdeal.Value
import proofs.«127193_j33088428049082_1_alg».proof.Proof.KernelPayload
import Idealize.ShloMosaic.Lib.StableHlo.Run

noncomputable section

open scoped BigOperators
open Idealize.ShloMosaic Idealize.ShloMosaic.TcCoe Idealize.SL.Sem Idealize.ShloMosaic.StableHlo Idealize.ShloMosaic.ValueIdx
open Idealize.ShloMosaic.Pipeline (Dat)

namespace Cert.Proof.KernelAverage

open Cert.KernelIdeal Cert.KernelIdeal.Gen Cert.KernelIdeal.Value Cert.Proof.Average Cert.Proof.KernelPayload

variable (m : (ℓ : Loc nD τ sig) → Buf (Elt Ideal) ℓ) (ρ : Dev nD → PrngReg)

/-! ## The argument arrays, at their literal types -/

/-- `values`, 2,000,000 rows of 128. -/
abbrev values (c : Dev nD) : S2000000x128.Idx → EReal := m ((c : Thread nD τ).loc main_arg0)
/-- The weight matrix `W`, `[out, in]`. -/
abbrev weights (c : Dev nD) : S128x128.Idx → EReal := m ((c : Thread nD τ).loc main_arg6)
/-- The bias. -/
abbrev bias (c : Dev nD) : S128.Idx → EReal := m ((c : Thread nD τ).loc main_arg7)
/-- The global features. -/
abbrev globalRow (c : Dev nD) : S128.Idx → EReal := m ((c : Thread nD τ).loc main_arg5)

/-! ## The arrays the operations before the call write -/

/-- The weight operand: `W` transposed (its narrowing to the matrix unit's format is the identity here). -/
theorem weights_entry (c : Dev nD) :
    (V m c main_v17 : S128x128.Idx → EReal)
      = truncf (F := Ideal) .bf16 (transpose S128x128 [1, 0] (weights m c) transposes_S128x128_S128x128_1_0) bitsLt_bf16_f32 := by
  dsimp only [Gen.V, Gen.hostOps0]; after_results

/-- The row operand: bias plus global features, as one row. -/
theorem row_entry (c : Dev nD) :
    (V m c main_v15 : S1x128.Idx → EReal)
      = shapeCast S1x128 (addf (F := Ideal) (s := S128) (φ := .f32) (bias m c) (globalRow m c)) shapeCasts_S128_S1x128 := by
  dsimp only [Gen.V, Gen.hostOps0]; after_results; rfl

/-- A transposed square matrix at `(a, b)` is the matrix at `(b, a)`. -/
theorem transposed_at (x : S128x128.Idx → EReal) (h : S128x128.Transposes [1, 0] S128x128) (a b : Fin 128) :
    transpose S128x128 [1, 0] x h (ix2 a b) = x (ix2 b a) :=
  transpose_apply [1, 0] x h (ix2 a b) (ix2 b a) (fun d => by match d with | ⟨0, _⟩ => rfl | ⟨1, _⟩ => rfl)

/-- 128 entries laid out as one row: the row's entry `q` is entry `q`. -/
theorem one_row_at (x : S128.Idx → EReal) (h : S128.ShapeCasts S1x128) (q : Fin 128) :
    shapeCast S1x128 x h (ix2 0 q) = x (ix1 q) :=
  shapeCast_apply x h (ix2 0 q) (ix1 q) (by
    rw [Shape.rowMajor_val_one, Shape.rowMajor_val_two]
    show q.val = 0 * 128 + q.val
    omega)

/-- The weight operand at `(k, o)` is `W[o, k]`. -/
theorem weights_at (c : Dev nD) (k o : Fin 128) :
    (V m c main_v17 : S128x128.Idx → EReal) (ix2 k o) = weights m c (ix2 o k) := by
  rw [weights_entry]
  exact transposed_at _ _ k o

/-- The row operand at column `q` is `b[q] + g[q]`. -/
theorem row_at_col (c : Dev nD) (q : Fin 128) :
    (V m c main_v15 : S1x128.Idx → EReal) (ix2 0 q)
      = bias m c (ix1 q) + globalRow m c (ix1 q) := by
  rw [row_entry, one_row_at]
  rfl

/-! ## Where each point's blocks sit -/

theorem zero_offset : (![0, 0] : Fin 2 → Nat) = fun _ => 0 := funext fun a => by fin_cases a <;> rfl

/-- The block indices, decided over the 400 points: the row blocks of `values`, of the two gathered tables and of the
    result are block `t` at point `t`; the weights and the row are block 0 throughout; no window moves along the columns. -/
theorem block_indices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

/-! ## The result -/

/-- The average of the argument arrays, the two tables as gathered before the call. -/
abbrev result (c : Dev nD) : S2000000x128.Idx → EReal :=
  avg (values m c) (weights m c) (bias m c) (globalRow m c) (V m c main_v6) (V m c main_v13)

/-- WHAT POINT `t` WRITES BACK is block `t` of the average. -/
theorem flushed_eq (c : Dev nD) (t : Fin cfg0.N) :
    (dats m 0 c).flushed 5 t = ((cfg0.win 5).blk t).view.read (Elt Ideal) (result m c) := by
  rw [flushed5]
  unfold out0_5
  rw [View.canon_unit_zero zero_offset]
  simp only [View.ld_unit_zero (S := S5000x128) zero_offset, View.ld_unit_zero (S := S128x128) zero_offset,
    View.ld_unit_zero (S := S1x128) zero_offset]
  obtain ⟨e00, e01, e10, e11, e20, e21, e30, e31, e40, e41, e50, e51⟩ := block_indices t
  funext j
  have hj0 : (j 0).val < 5000 := (j 0).isLt
  have hj1 : (j 1).val < 128 := (j 1).isLt
  show k0_pay1 (F := Ideal) (iblk m c 0 t) (iblk m c 1 t) (iblk m c 3 t) (iblk m c 4 t) (iblk m c 2 t) j
      = result m c (((cfg0.win 5).blk t).view.emb j)
  have hi0 : ((((cfg0.win 5).blk t).view.emb j) 0).val = t.val * 5000 + (j 0).val := by
    show win0_5.index t (0 : Fin 2) * 5000 + 1 * (j 0).val = _; omega
  have hi1 : ((((cfg0.win 5).blk t).view.emb j) 1).val = (j 1).val := by
    show win0_5.index t (1 : Fin 2) * 128 + 1 * (j 1).val = _; omega
  refine stored_eq_avg (values m c) (weights m c) (bias m c) (globalRow m c) (V m c main_v6) (V m c main_v13)
    (iblk m c 0 t) (iblk m c 1 t) (iblk m c 3 t) (iblk m c 4 t) (iblk m c 2 t) j (((cfg0.win 5).blk t).view.emb j) ?_ ?_ ?_ ?_ ?_
  · intro k
    show V m c main_arg0 (((cfg0.win 0).blk t).view.emb (ix2 (j 0) k)) = _
    rw [V_main_arg0]
    refine congrArg _ (funext fun a => Fin.ext ?_)
    match a with
    | ⟨0, _⟩ => show win0_0.index t (0 : Fin 2) * 5000 + 1 * (j 0).val = ((((cfg0.win 5).blk t).view.emb j) 0).val; omega
    | ⟨1, _⟩ => show win0_0.index t (1 : Fin 2) * 128 + 1 * k.val = k.val; omega
  · intro k
    show V m c main_v17 (((cfg0.win 1).blk t).view.emb (ix2 k (j 1))) = _
    have e : ((cfg0.win 1).blk t).view.emb (ix2 k (j 1)) = ix2 k ⟨(j 1).val, hj1⟩ := funext fun a => Fin.ext (by
      match a with
      | ⟨0, _⟩ => show win0_1.index t (0 : Fin 2) * 128 + 1 * k.val = k.val; omega
      | ⟨1, _⟩ => show win0_1.index t (1 : Fin 2) * 128 + 1 * (j 1).val = (j 1).val; omega)
    rw [e]
    refine (weights_at m c k ⟨(j 1).val, hj1⟩).trans (congrArg _ (funext fun a => Fin.ext ?_))
    match a with
    | ⟨0, _⟩ => exact hi1.symm
    | ⟨1, _⟩ => rfl
  · show V m c main_v6 (((cfg0.win 3).blk t).view.emb j) = _
    refine congrArg _ (funext fun a => Fin.ext ?_)
    match a with
    | ⟨0, _⟩ => show win0_3.index t (0 : Fin 2) * 5000 + 1 * (j 0).val = win0_5.index t (0 : Fin 2) * 5000 + 1 * (j 0).val; omega
    | ⟨1, _⟩ => show win0_3.index t (1 : Fin 2) * 128 + 1 * (j 1).val = win0_5.index t (1 : Fin 2) * 128 + 1 * (j 1).val; omega
  · show V m c main_v13 (((cfg0.win 4).blk t).view.emb j) = _
    refine congrArg _ (funext fun a => Fin.ext ?_)
    match a with
    | ⟨0, _⟩ => show win0_4.index t (0 : Fin 2) * 5000 + 1 * (j 0).val = win0_5.index t (0 : Fin 2) * 5000 + 1 * (j 0).val; omega
    | ⟨1, _⟩ => show win0_4.index t (1 : Fin 2) * 128 + 1 * (j 1).val = win0_5.index t (1 : Fin 2) * 128 + 1 * (j 1).val; omega
  · show V m c main_v15 (((cfg0.win 2).blk t).view.emb (ix2 0 (j 1))) = _
    have e : ((cfg0.win 2).blk t).view.emb (ix2 0 (j 1)) = ix2 0 ⟨(j 1).val, hj1⟩ := funext fun a => Fin.ext (by
      match a with
      | ⟨0, _⟩ => show win0_2.index t (0 : Fin 2) * 1 + 1 * 0 = 0; omega
      | ⟨1, _⟩ => show win0_2.index t (1 : Fin 2) * 128 + 1 * (j 1).val = (j 1).val; omega)
    rw [e]
    have ei : (ix1 ((((cfg0.win 5).blk t).view.emb j) 1) : S128.Idx) = ix1 ⟨(j 1).val, hj1⟩ := funext fun a => Fin.ext (by
      match a with
      | ⟨0, _⟩ => exact hi1)
    rw [ei]
    exact row_at_col m c ⟨(j 1).val, hj1⟩

/-- An index of the array is in point `t`'s block iff each coordinate is in the block's range on its axis. -/
theorem mem_block (t : Fin cfg0.N) (i : S2000000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v18).slice (win0_5.rect t)).set ↔ _
  rw [View.set_slice_whole, Rect.mem_set_unit]
  exact Iff.rfl

/-- The 400 row blocks tile the array: row `r` is in the block of point `r / 5000`. -/
theorem covered (i : S2000000x128.Idx) :
    ∃ t : Fin cfg0.N, (cfg0.win 5).flush t = true ∧ i ∈ ((cfg0.win 5).blk t).view.set := by
  have hi0 : (i 0).val < 2000000 := (i 0).isLt
  have hi1 : (i 1).val < 128 := (i 1).isLt
  have hN : cfg0.N = 400 := N_0
  let t : Fin cfg0.N := ⟨(i 0).val / 5000, by rw [hN]; omega⟩
  obtain ⟨-, -, -, -, -, -, -, -, -, -, e50, e51⟩ := block_indices t
  have ht : t.val = (i 0).val / 5000 := rfl
  refine ⟨t, flush0_5 t, ?_⟩
  rw [mem_block]
  intro a
  match a with
  | ⟨0, _⟩ => show win0_5.index t (0 : Fin 2) * 5000 ≤ (i 0).val ∧ (i 0).val < win0_5.index t (0 : Fin 2) * 5000 + 5000; omega
  | ⟨1, _⟩ => show win0_5.index t (1 : Fin 2) * 128 ≤ (i 1).val ∧ (i 1).val < win0_5.index t (1 : Fin 2) * 128 + 128; omega

/-- THE ARRAY after the run is the average. -/
theorem final (c : Dev nD) : (dats m 0 c).arrAt 5 cfg0.N = result m c :=
  (dats m 0 c).arrAt_eq_of_cover 5 (result m c) (fun t _ => flushed_eq m c t) covered

/-- The kernel's run: every weakly fair execution ends with the result array at the average and the arguments as launched. -/
theorem run : θ_run defs (onTc (τ := τ) (main (F := Ideal))) ⟨m, fun _ => 0, ρ⟩ fun r => ∀ c : Dev nD,
      r.2.mem ((c : Thread nD τ).loc main_v18) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final m c), (h c).2⟩) (run_blocks m ρ)

end Cert.Proof.KernelAverage

end
-- ==== Proof.ReferenceAverage.lean ====
/-
  The reference's result, read at an index, is the averaged features `Average.avg` of the argument arrays.

  The reference computes the projection as one `dot_general` contracting the second axis of `values` with the second
  axis of `W` (so its element `(n, o)` is `∑ k, values[n, k] · W[o, k]`), adds the bias broadcast along the rows, then
  the gathered scene row, then the gathered view row, then the global features broadcast along the rows, and multiplies
  by one quarter. Read at an index every step is pointwise but the contraction; the only algebra is the regrouping of
  the four summands. The two gathers are carried as they stand: they are the same two functions of the index arrays
  and tables in both programs.
-/
import proofs.«127193_j33088428049082_1_alg».proof.Proof.Gen.ReferenceIdeal.Read
import proofs.«127193_j33088428049082_1_alg».proof.Proof.Average

noncomputable section

open scoped BigOperators
open Idealize.ShloMosaic Idealize.ShloMosaic.ValueIdx

namespace Cert.Proof.ReferenceAverage

open Cert.ReferenceIdeal Cert.ReferenceIdeal.Read Cert.Proof.Average

/-- The left operand of the contraction at term `k` of element `i`: row `i 0`, column `k` of `values`. -/
theorem left_index (i : S2000000x128.Idx) (k : Fin 128) : lidx_main_v0 i k = ix2 (i 0) k :=
  funext fun a => Fin.ext (by match a with | ⟨0, _⟩ => rfl | ⟨1, _⟩ => rfl)

/-- The right operand at term `k`: row `i 1` (the output feature), column `k` of `W`. -/
theorem right_index (i : S2000000x128.Idx) (k : Fin 128) : ridx_main_v0 i k = ix2 (i 1) k :=
  funext fun a => Fin.ext (by match a with | ⟨0, _⟩ => rfl | ⟨1, _⟩ => rfl)

/-- The bias, broadcast to one row and then to all rows, is read at the output feature. -/
theorem bias_index (i : S2000000x128.Idx) : idx_main_v1 (idx_main_v2 i) = ix1 (i 1) :=
  funext fun a => Fin.ext (by match a with | ⟨0, _⟩ => rfl)

/-- So are the global features. -/
theorem global_index (i : S2000000x128.Idx) : idx_main_v20 (idx_main_v21 i) = ix1 (i 1) :=
  funext fun a => Fin.ext (by match a with | ⟨0, _⟩ => rfl)

/-- The reference's last stage is `avg` of the arguments and the two gathered tables. -/
theorem result_eq (x0 : (⟨S2000000x128, .f32⟩ : BufTy).Contents (Elt Ideal)) (x1 x2 : (⟨S2000000, .i32⟩ : BufTy).Contents (Elt Ideal))
    (x3 : (⟨S200000x128, .f32⟩ : BufTy).Contents (Elt Ideal)) (x4 : (⟨S2000x128, .f32⟩ : BufTy).Contents (Elt Ideal))
    (x5 : (⟨S128, .f32⟩ : BufTy).Contents (Elt Ideal)) (x6 : (⟨S128x128, .f32⟩ : BufTy).Contents (Elt Ideal))
    (x7 : (⟨S128, .f32⟩ : BufTy).Contents (Elt Ideal)) :
    val_main_v24 (F := Ideal) x0 x1 x2 x3 x4 x5 x6 x7
      = avg x0 x6 x7 x5 (val_main_v10 (F := Ideal) x2 x3) (val_main_v18 (F := Ideal) x1 x4) := by
  funext i
  rw [val_main_v24_apply, val_main_v22_apply, val_main_v19_apply, val_main_v11_apply, val_main_v3_apply,
    val_main_v0_apply, val_main_v2_apply, val_main_v1_apply, val_main_v21_apply, val_main_v20_apply,
    val_main_v23_apply, val_main_cst_apply]
  simp only [left_index, right_index, bias_index, global_index]
  exact congrArg (· * quarter) (regroup _ _ _ _ _)

end Cert.Proof.ReferenceAverage

end
-- ==== Proof.lean ====
/-
  The certificate's claims for the fused projection-and-average kernel against its jnp reference.

  Both programs compute, for each of 2,000,000 rows `n` and 128 output features `o`,
    `¼ · ( ∑ k, values[n, k] · W[o, k]  +  scene[col_idx[n], o]  +  view[row_idx[n], o]  +  b[o]  +  g[o] )`.
  The kernel gathers the two tables, transposes `W` and adds `b + g` before its one kernel call, whose 400 grid points
  each take 5000 rows: a product on the matrix unit into a zero accumulator, three additions, one scaling. The
  reference is one `dot_general` followed by the additions in another grouping. On the extended reals the change of
  float format is the identity, the product into zero is the plain contraction, and addition is commutative and
  associative at every value, so the two results are one function of the arguments (`Average.avg`); the precondition
  is not used. The two gathers, with the wrap-around of negative indices that precedes them, are the same operations
  on the same arguments in both programs and are compared as they stand.

  The kernel's frames are the generated ones; the reference's frame is its generated run with the result dropped;
  the idealization rewrote nothing, so `preserves` is trivial.
-/
import proofs.«127193_j33088428049082_1_alg».proof.Defs
import proofs.«127193_j33088428049082_1_alg».proof.Proof.Gen.Kernel
import proofs.«127193_j33088428049082_1_alg».proof.Proof.Gen.Kernel.Skeleton
import proofs.«127193_j33088428049082_1_alg».proof.Proof.Gen.Kernel.Launch
import proofs.«127193_j33088428049082_1_alg».proof.Proof.Gen.Kernel.Points
import proofs.«127193_j33088428049082_1_alg».proof.Proof.Gen.Kernel.Frame
import proofs.«127193_j33088428049082_1_alg».proof.Proof.Gen.KernelIdeal
import proofs.«127193_j33088428049082_1_alg».proof.Proof.Gen.KernelIdeal.Skeleton
import proofs.«127193_j33088428049082_1_alg».proof.Proof.Gen.KernelIdeal.Launch
import proofs.«127193_j33088428049082_1_alg».proof.Proof.Gen.KernelIdeal.Points
import proofs.«127193_j33088428049082_1_alg».proof.Proof.Gen.KernelIdeal.Frame
import proofs.«127193_j33088428049082_1_alg».proof.Proof.Gen.ReferenceIdeal
import proofs.«127193_j33088428049082_1_alg».proof.Proof.Gen.Pre_finite_inputs
import proofs.«127193_j33088428049082_1_alg».proof.Proof.Gen.KernelIdeal.Value
import proofs.«127193_j33088428049082_1_alg».proof.Proof.Gen.ReferenceIdeal.Run
import proofs.«127193_j33088428049082_1_alg».proof.Proof.Gen.ReferenceIdeal.Read
import proofs.«127193_j33088428049082_1_alg».proof.Proof.KernelAverage
import proofs.«127193_j33088428049082_1_alg».proof.Proof.ReferenceAverage
import Idealize.ShloMosaic.Adequacy
import Idealize.ShloMosaic.Init

noncomputable section

namespace Cert.Proof

open Idealize.ShloMosaic Idealize.ShloMosaic.TcCoe Idealize.SL.Sem Idealize.ShloMosaic.StableHlo

/-! ## The gathered tables are the same functions of the arguments in both programs -/

section Gathered

open Cert.KernelIdeal Cert.KernelIdeal.Gen

variable (m : (ℓ : Loc nD τ sig) → Buf (Elt Ideal) ℓ)

/-- The scene-point table as the kernel's call finds it: the reference's gather of the same table at the same
    (wrapped) indices. -/
theorem scene_rows (c : Dev nD) :
    (V m c main_v6 : S2000000x128.Idx → EReal)
      = Cert.ReferenceIdeal.Read.val_main_v10 (F := Ideal) (m ((c : Thread nD τ).loc main_arg2)) (m ((c : Thread nD τ).loc main_arg3)) := by
  dsimp only [Gen.V, Gen.hostOps0]; after_results; rfl

/-- The view table likewise. -/
theorem view_rows (c : Dev nD) :
    (V m c main_v13 : S2000000x128.Idx → EReal)
      = Cert.ReferenceIdeal.Read.val_main_v18 (F := Ideal) (m ((c : Thread nD τ).loc main_arg1)) (m ((c : Thread nD τ).loc main_arg4)) := by
  dsimp only [Gen.V, Gen.hostOps0]; after_results; rfl

end Gathered

/-! ## The claims -/

theorem frame_kernel : Cert.frame_Kernel := fun m ρ _ => Cert.Kernel.Gen.frame m ρ

theorem frame_kernel_ideal : Cert.frame_KernelIdeal := fun m ρ _ => Cert.KernelIdeal.Gen.frame m ρ

theorem frame_reference_ideal : Cert.frame_ReferenceIdeal := fun m ρ _ =>
  (θ_run Cert.ReferenceIdeal.defs _ _).mono (fun _ h c => (h c).2) (Cert.ReferenceIdeal.Value.run (F := Ideal) m ρ)

/-- Both runs end with the result at `Average.avg` of the arguments: the kernel's by the block-by-block reading of its
    run, the reference's by reading its operations at an index; the arguments agree by hypothesis. -/
theorem algebraic : Cert.algebraic_KernelIdeal_ReferenceIdeal := by
  intro m ρ m' ρ' _ hagree
  refine ⟨fun c => Cert.Proof.KernelAverage.result m c, Cert.Proof.KernelAverage.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7⟩ := hagree c
  rw [Cert.ReferenceIdeal.Read.val_main_v24_eq, Cert.Proof.ReferenceAverage.result_eq, h0, h1, h2, h3, h4, h5, h6, h7]
  show _ = Cert.Proof.Average.avg _ _ _ _ (Cert.KernelIdeal.Gen.V m c Cert.KernelIdeal.main_v6) (Cert.KernelIdeal.Gen.V m c Cert.KernelIdeal.main_v13)
  rw [scene_rows, view_rows]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, trivial, algebraic⟩

end Cert.Proof

end
